-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x5 : Shape := ⟨2, ![8192, 5]⟩
abbrev S16x512x512 : Shape := ⟨3, ![16, 512, 512]⟩
abbrev S_ : Shape := ⟨0, ![]⟩

class Facts : Prop where
  bcast_S_S8192x5 : S_.BroadcastsInDim S8192x5 (![] : Fin 0 → Fin S8192x5.rank)
  reducesTo_S8192x5_S_d0_1 : S8192x5.ReducesTo [0, 1] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S8192x5 .f32) (main_arg1 : IVec S16x512x512 32) : IVec S_ 1 :=
  let main_v0 : FVec F S8192x5 .f32 := Host.absf main_arg0
  let main_cst : FVec F S_ .f32 := constant S_ .f32 0x7F800000#32
  let main_v1 : FVec F S8192x5 .f32 := broadcastInDim S8192x5 ![] bcast_S_S8192x5 main_cst
  let main_v2 : IVec S8192x5 1 := cmpf .olt main_v0 main_v1
  let main_c : IVec S_ 1 := constantI S_ 1 1#1
  let main_v3 : IVec S_ 1 := (fun x v => Host.reduce IntOp.andi x v reducesTo_S8192x5_S_d0_1 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 1 := constantI S_ 1 1#1
  let main_v6 : IVec S_ 1 := (fun x v => Host.reduce IntOp.andi x v reducesTo_S16x512x512_S_d0_1_2 h_S_) main_v5 main_c_1
  let main_v7 : IVec S_ 1 := andi main_v3 main_v6
  main_v7
-- ==== Kernel.lean ====
abbrev S8192x5 : Shape := ⟨2, ![8192, 5]⟩
abbrev S16x512x512 : Shape := ⟨3, ![16, 512, 512]⟩
abbrev S16x512x5 : Shape := ⟨3, ![16, 512, 5]⟩
abbrev S16x512x15 : Shape := ⟨3, ![16, 512, 15]⟩
abbrev S16x512x512x5 : Shape := ⟨4, ![16, 512, 512, 5]⟩
abbrev S1x8x512 : Shape := ⟨3, ![1, 8, 512]⟩
abbrev S1x512x15 : Shape := ⟨3, ![1, 512, 15]⟩
abbrev S1x8x512x5 : Shape := ⟨4, ![1, 8, 512, 5]⟩
abbrev S8x512 : Shape := ⟨2, ![8, 512]⟩
abbrev S8x512x1 : Shape := ⟨3, ![8, 512, 1]⟩
abbrev S512x15 : Shape := ⟨2, ![512, 15]⟩
abbrev S8x512x512 : Shape := ⟨3, ![8, 512, 512]⟩
abbrev S4096x512 : Shape := ⟨2, ![4096, 512]⟩
abbrev S4096x15 : Shape := ⟨2, ![4096, 15]⟩
abbrev S4096x5 : Shape := ⟨2, ![4096, 5]⟩
abbrev S8x512x5 : Shape := ⟨3, ![8, 512, 5]⟩

abbrev nBuf : Space → Nat
  | .hbm => 12
  | .vmem => 6
  | .smem => 0
  | _ => 0

abbrev bufTy : (tb : Table) → Fin (tcTables nBuf tb) → BufTy
  | .hbm, ⟨0, _⟩ => ⟨S8192x5, .f32⟩
  | .hbm, ⟨1, _⟩ => ⟨S16x512x512, .i32⟩
  | .hbm, ⟨2, _⟩ => ⟨S16x512x5, .f32⟩
  | .hbm, ⟨3, _⟩ => ⟨S16x512x5, .bf16⟩
  | .hbm, ⟨4, _⟩ => ⟨S16x512x5, .f32⟩
  | .hbm, ⟨5, _⟩ => ⟨S16x512x5, .f32⟩
  | .hbm, ⟨6, _⟩ => ⟨S16x512x5, .bf16⟩
  | .hbm, ⟨7, _⟩ => ⟨S16x512x5, .f32⟩
  | .hbm, ⟨8, _⟩ => ⟨S16x512x5, .f32⟩
  | .hbm, ⟨9, _⟩ => ⟨S16x512x5, .bf16⟩
  | .hbm, ⟨10, _⟩ => ⟨S16x512x15, .bf16⟩
  | .hbm, ⟨11, _⟩ => ⟨S16x512x512x5, .f32⟩
  | .local _ .vmem, ⟨0, _⟩ => ⟨S1x8x512, .i32⟩
  | .local _ .vmem, ⟨1, _⟩ => ⟨S1x8x512, .i32⟩
  | .local _ .vmem, ⟨2, _⟩ => ⟨S1x512x15, .bf16⟩
  | .local _ .vmem, ⟨3, _⟩ => ⟨S1x512x15, .bf16⟩
  | .local _ .vmem, ⟨4, _⟩ => ⟨S1x8x512x5, .f32⟩
  | .local _ .vmem, ⟨5, _⟩ => ⟨S1x8x512x5, .f32⟩
  | _, _ => ⟨S8192x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x15 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192x5_S16x512x5 : S8192x5.ShapeCasts S16x512x5
  bitsLt_bf16_f32 : FTy.bits .bf16 < FTy.bits .f32
  concatenates_S16x512x5_S16x512x5_S16x512x5_S16x512x15_d2 : Shape.Concatenates [S16x512x5, S16x512x5, S16x512x5] S16x512x15 2
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  shapeCasts_S8x512_S8x512x1 : S8x512.ShapeCasts S8x512x1
  inb_S1x512x15_S1x512x15_0_0_0 : ∀ a, (![0, 0, 0] : Fin 3 → Nat) a + S1x512x15.size a ≤ S1x512x15.size a
  h_S1x512x15 : 0 < S1x512x15.numel
  shapeCasts_S1x512x15_S512x15 : S1x512x15.ShapeCasts S512x15
  iota_S8x512x512_d2_w32 : S8x512x512.Iotas .tc 32 [2]
  broadcasts_S8x512x1_S8x512x512 : S8x512x1.Broadcasts S8x512x512
  natLt_1_32 : 1 < 32
  shapeCasts_S8x512x512_S4096x512 : S8x512x512.ShapeCasts S4096x512
  slices_S4096x15_o0_0_S4096x5 : S4096x15.Slices ![0, 0] S4096x5
  slices_S4096x15_o0_5_S4096x5 : S4096x15.Slices ![0, 5] S4096x5
  slices_S4096x15_o0_10_S4096x5 : S4096x15.Slices ![0, 10] S4096x5
  shapeCasts_S4096x5_S8x512x5 : S4096x5.ShapeCasts S8x512x5
  inb_S1x8x512x5_S1x8x512x5_0_0_0_0 : ∀ a, (![0, 0, 0, 0] : Fin 4 → Nat) a + S1x8x512x5.size a ≤ S1x8x512x5.size a
  h_S1x8x512x5 : 0 < S1x8x512x5.numel
  shapeCasts_S1x8x512x5_S8x512x5 : S1x8x512x5.ShapeCasts S8x512x5
  shapeCasts_S8x512x5_S1x8x512x5 : S8x512x5.ShapeCasts S1x8x512x5
  dot_S4096x512_S512x15_S4096x15_1_0_0_1_n_n_wf : DotDims.WF S4096x512 S512x15 S4096x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x512.size a ≤ S16x512x512.size a
  hwx0_0 : ∀ i : grid0.Coords, EltTy.bits .i32 = 32 ∨ (Rect.block (s := S16x512x512) S1x8x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x15.size a ≤ S16x512x15.size a
  hwx0_1 : ∀ i : grid0.Coords, EltTy.bits .bf16 = 32 ∨ (Rect.block (s := S16x512x15) S1x512x15.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x512x5.size a ≤ S16x512x512x5.size a
  hwx0_2 : ∀ i : grid0.Coords, EltTy.bits .f32 = 32 ∨ (Rect.block (s := S16x512x512x5) S1x8x512x5.size (cc0_transform_2 i) (hinb0_2 i)).WholeWords (EltTy.packing .f32)

variable [Facts₀]

def dot_S4096x512_S512x15_S4096x15_1_0_0_1_n_n : DotDims S4096x512 S512x15 S4096x15 where
  lhsContracting := [1]
  rhsContracting := [0]
  lhsNonContracting := [0]
  rhsNonContracting := [1]
  lhsBatch := []
  rhsBatch := []
  wf := dot_S4096x512_S512x15_S4096x15_1_0_0_1_n_n_wf

abbrev win0_0 : Pipeline.Window sig grid0 :=
  Pipeline.Window.ofSpec (Memref.whole main_arg1) S1x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x512x15.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8x512x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x5 : Shape := ⟨2, ![8192, 5]⟩
abbrev S16x512x512 : Shape := ⟨3, ![16, 512, 512]⟩
abbrev S16x512x5 : Shape := ⟨3, ![16, 512, 5]⟩
abbrev S16 : Shape := ⟨1, ![16]⟩
abbrev S16x1x1 : Shape := ⟨3, ![16, 1, 1]⟩
abbrev S_ : Shape := ⟨0, ![]⟩
abbrev S16x512x512x1 : Shape := ⟨4, ![16, 512, 512, 1]⟩
abbrev S16x512x512x2 : Shape := ⟨4, ![16, 512, 512, 2]⟩
abbrev S16x512x512x5 : Shape := ⟨4, ![16, 512, 512, 5]⟩

abbrev nBuf : Space → Nat
  | .hbm => 24
  | .vmem => 0
  | .smem => 0
  | _ => 0

abbrev bufTy : (tb : Table) → Fin (tcTables nBuf tb) → BufTy
  | .hbm, ⟨0, _⟩ => ⟨S8192x5, .f32⟩
  | .hbm, ⟨1, _⟩ => ⟨S16x512x512, .i32⟩
  | .hbm, ⟨2, _⟩ => ⟨S16x512x5, .f32⟩
  | .hbm, ⟨3, _⟩ => ⟨S16, .i32⟩
  | .hbm, ⟨4, _⟩ => ⟨S16x1x1, .i32⟩
  | .hbm, ⟨5, _⟩ => ⟨S_, .i32⟩
  | .hbm, ⟨6, _⟩ => ⟨S16x1x1, .i32⟩
  | .hbm, ⟨7, _⟩ => ⟨S16x1x1, .i1⟩
  | .hbm, ⟨8, _⟩ => ⟨S_, .i32⟩
  | .hbm, ⟨9, _⟩ => ⟨S16x1x1, .i32⟩
  | .hbm, ⟨10, _⟩ => ⟨S16x1x1, .i32⟩
  | .hbm, ⟨11, _⟩ => ⟨S16x1x1, .i32⟩
  | .hbm, ⟨12, _⟩ => ⟨S_, .i32⟩
  | .hbm, ⟨13, _⟩ => ⟨S16x512x512, .i32⟩
  | .hbm, ⟨14, _⟩ => ⟨S16x512x512, .i1⟩
  | .hbm, ⟨15, _⟩ => ⟨S_, .i32⟩
  | .hbm, ⟨16, _⟩ => ⟨S16x512x512, .i32⟩
  | .hbm, ⟨17, _⟩ => ⟨S16x512x512, .i32⟩
  | .hbm, ⟨18, _⟩ => ⟨S16x512x512, .i32⟩
  | .hbm, ⟨19, _⟩ => ⟨S16x512x512, .i32⟩
  | .hbm, ⟨20, _⟩ => ⟨S16x512x512x1, .i32⟩
  | .hbm, ⟨21, _⟩ => ⟨S16x512x512x1, .i32⟩
  | .hbm, ⟨22, _⟩ => ⟨S16x512x512x2, .i32⟩
  | .hbm, ⟨23, _⟩ => ⟨S16x512x512x5, .f32⟩
  | _, _ => ⟨S8192x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8192x5_S16x512x5 : S8192x5.ShapeCasts S16x512x5
  bcast_S16_S16x1x1_0 : S16.BroadcastsInDim S16x1x1 (![0] : Fin 1 → Fin S16x1x1.rank)
  bcast_S_S16x1x1 : S_.BroadcastsInDim S16x1x1 (![] : Fin 0 → Fin S16x1x1.rank)
  bcast_S_S16x512x512 : S_.BroadcastsInDim S16x512x512 (![] : Fin 0 → Fin S16x512x512.rank)
  bcast_S16x1x1_S16x512x512_0_1_2 : S16x1x1.BroadcastsInDim S16x512x512 (![0, 1, 2] : Fin 3 → Fin S16x512x512.rank)
  bcast_S16x512x512_S16x512x512x1_0_1_2 : S16x512x512.BroadcastsInDim S16x512x512x1 (![0, 1, 2] : Fin 3 → Fin S16x512x512x1.rank)
  concatenates_S16x512x512x1_S16x512x512x1_S16x512x512x2_d3 : Shape.Concatenates [S16x512x512x1, S16x512x512x1] S16x512x512x2 3
  gather_S16x512x5_S16x512x512x2_S16x512x512x5_3_01_n_n_01_3_115_wf : GatherDims.WF S16x512x5 S16x512x512x2 S16x512x512x5 [3] [0, 1] [] [0, 1] [] 3 ![1, 1, 5]

variable [Facts₀]

def gather_S16x512x5_S16x512x512x2_S16x512x512x5_3_01_n_n_01_3_115 : GatherDims S16x512x5 S16x512x512x2 S16x512x512x5 where
  offsetDims := [3]
  collapsedSliceDims := [0, 1]
  operandBatchingDims := []
  startIndicesBatchingDims := []
  startIndexMap := [0, 1]
  indexVectorDim := 3
  sliceSizes := ![1, 1, 5]
  wf := gather_S16x512x5_S16x512x512x2_S16x512x512x5_3_01_n_n_01_3_115_wf

class Facts : Prop extends Facts₀ where

variable [Facts]
-- ==== Proof.Bits.Entry.lean ====
import proofs.«424319_j55310588838069_3_alg».proof.Proof.Gen.Kernel.Launch
import proofs.«424319_j55310588838069_3_alg».proof.Proof.Gen.Kernel.Skeleton
import proofs.«424319_j55310588838069_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the nine host operations that build
    the three-term table. -/
abbrev entry (c : Dev nD) (b : Ref sig .tc) : Buf (Elt F) ((c : Thread nD τ).loc b) :=
  StableHlo.after hostOps0 (fun b => m (c, b)) b

/-- None of the nine allocates a buffer. -/
theorem hostOps0_fresh : (hostOps0 : List (HloOp τ sig (Elt F))).Forall fun op => op.fresh = ∅ := by
  simp only [List.Forall]; repeat' constructor

/-- @main is those operations and then the region, entered at `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The logits array is written by none of them: the region finds it as launched. -/
theorem entry_logits (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-- Nor is the segment-id array. -/
theorem entry_segments (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at grid point `t`, cut from its array as the region finds it: for the ids, image `t / 64`'s
    rows `8 (t % 64) … 8 (t % 64) + 7`; for the table, image `t / 64`'s whole [512, 15] slab. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The id window's staging buffer holds its block at every point, for any proof data over the entry contents
    whose body leaves that block in place. -/
theorem ids_found {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- So does the table window's, although it is fetched only when the image changes: in between, the block index
    has not moved and the buffer still holds the same slab. -/
theorem table_found {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-! ## From the pipeline's frame post to the frame claim's -/

/-- A run ending with every array of the pipeline at what its proof data computes and every other buffer as the
    region found it ends with both arguments as launched: the ids are an input window's array, which the pipeline
    never writes; the logits are staged by no window. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (entry_logits m c),
      ((h c).1 0).trans (((dats 0 c).arrAt_in 0 rfl _).trans ((hA c 0).trans (entry_segments m c)))⟩) h

end Cert.Kernel.Region

end
-- ==== Proof.Bits.Body.lean ====
import proofs.«424319_j55310588838069_3_alg».proof.Proof.Bits.Entry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev idsRect : Rect S1x8x512 := Rect.unit (s := S1x8x512) ![0, 0, 0] S1x8x512.size inb_S1x8x512_S1x8x512_0_0_0
abbrev tableRect : Rect S1x512x15 := Rect.unit (s := S1x512x15) ![0, 0, 0] S1x512x15.size inb_S1x512x15_S1x512x15_0_0_0
abbrev outRect : Rect S1x8x512x5 := Rect.unit (s := S1x8x512x5) ![0, 0, 0, 0] S1x8x512x5.size inb_S1x8x512x5_S1x8x512x5_0_0_0_0

/-! ## What the body leaves in the output's buffer -/

/-- The output block after the body, from the two input blocks: its one store, of the body's arithmetic on what
    the two loads read. -/
def leaves (ids : Vec F S1x8x512 .i32) (table : Vec F S1x512x15 .bf16) : Vec F S1x8x512x5 .f32 :=
  View.canon [⟨outRect, k0_pay1 (View.ld ids idsRect) (View.ld table tableRect)⟩]

/-- That store's rectangle is the whole block. -/
theorem out_covered (p : Vec F S1x8x512x5 .f32) (y : S1x8x512x5.Idx) :
    ∃ pc ∈ ([⟨outRect, p⟩] : List (View.Piece (Elt F) S1x8x512x5 .f32)), y ∈ pc.1.set :=
  View.cover_of_tiled [⟨outRect, p⟩] S1x8x512x5.size (by rfl) y

/-! ## The body's triple -/

set_option maxHeartbeats 1000000 in
/-- On whole staging memrefs, the inputs' at contents `ids` and `table` and the output's at anything, the body runs
    to its continuation with the inputs' as they were and the output's at `leaves ids table`. -/
theorem body_runs (c : Dev nD) (E : Set ℕ) (i : grid0.Coords)
    (arg2 : Memref sig .tc .vmem S1x8x512 .i32) (harg2 : arg2.IsWhole)
    (arg3 : Memref sig .tc .vmem S1x512x15 .bf16) (harg3 : arg3.IsWhole)
    (arg4 : Memref sig .tc .vmem S1x8x512x5 .f32) (harg4 : arg4.IsWhole)
    (ids : Vec F S1x8x512 .i32) (table : Vec F S1x512x15 .bf16) (K : PUnit → sProp 𝕄) :
    iprop(owns (c : Thread nD τ) arg2 fullShare ids ∗ owns (c : Thread nD τ) arg3 fullShare table
        ∗ (∃ d, owns (c : Thread nD τ) arg4 fullShare d)
        ∗ (iprop(owns (c : Thread nD τ) arg2 fullShare ids ∗ owns (c : Thread nD τ) arg3 fullShare table
            ∗ owns (c : Thread nD τ) arg4 fullShare (leaves ids table)) -∗ K ⟨⟩))
      ⊢ wp frame (wpE (defs₀ (F := F)) Variants.none c none) E (cc0__gather_kernel i arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the arrays as the region finds them; after the body at point `t` each input's buffer at its block
    and the output's at `leaves` of the two; the scoped rest and the generator register untouched; nothing owed;
    full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => leaves (blockAt m c 0 t) (blockAt m c 1 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_ids (c : Dev nD) (t : Fin cfg0.N) : (dats m 0 c).after 0 t = blockAt m c 0 t := by dsimp only [dats]
theorem after_table (c : Dev nD) (t : Fin cfg0.N) : (dats m 0 c).after 1 t = blockAt m c 1 t := by dsimp only [dats]
theorem after_out (c : Dev nD) (t : Fin cfg0.N) :
    (dats m 0 c).after 2 t = leaves (blockAt m c 0 t) (blockAt m c 1 t) := by dsimp only [dats]

theorem before_ids (c : Dev nD) (t : Fin cfg0.N) (d) : (dats m 0 c).before 0 t d = blockAt m c 0 t :=
  ids_found m (dats m 0 c) (dats_A m c 0) (after_ids m c) t d
theorem before_table (c : Dev nD) (t : Fin cfg0.N) (d) : (dats m 0 c).before 1 t d = blockAt m c 1 t :=
  table_found m (dats m 0 c) (dats_A m c 1) (after_table m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_ids, before_table]
  rw [show (dats m 0 c).Φ t.succ = (dats m 0 c).Φ t.castSucc from rfl,
    show (dats m 0 c).owesAt () t.succ = (dats m 0 c).owesAt () t.castSucc from rfl,
    after_ids, after_table, after_out]
  iintro ⟨HΦ, Ho, ⟨%d0, H0⟩, ⟨%d1, H1⟩, ⟨%d2, H2⟩⟩
  iapply (body_runs c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, faulting nowhere, with
    every array of the pipeline at what the proof data computes and every other unscoped buffer as the region
    found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := dats_A m) (hΦ := fun _ _ => rfl)

/-- The frame claim's statement, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (dats_A m) (run_main m ρ)

end Cert.Kernel.Region

end
-- ==== Proof.Ideal.Entry.lean ====
/-
  What the gather kernel's one region finds when @main enters it.

  @main first splits the logits table into three bf16 terms (the value, the residual of its bf16 rounding, the
  residual of that) and lays them side by side as a [16, 512, 15] table; only then does it launch the region,
  over a 16 × 64 grid, on the segment ids and that table. Here: the buffers' contents after those nine host
  operations (`entry`), that neither argument array is among the buffers they write, each window's block at a
  grid point as cut from those contents, that an input window's staging buffer holds exactly that block at
  every point (fetched there or carried over from the point before, the table's block index moving only with
  the image), and that a run to the pipeline's frame post is a run to the frame claim's post.
-/
import proofs.«424319_j55310588838069_3_alg».proof.Proof.Gen.KernelIdeal.Launch
import proofs.«424319_j55310588838069_3_alg».proof.Proof.Gen.KernelIdeal.Skeleton
import proofs.«424319_j55310588838069_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch contents after the nine host operations that build
    the three-term table. -/
abbrev entry (c : Dev nD) (b : Ref sig .tc) : Buf (Elt F) ((c : Thread nD τ).loc b) :=
  StableHlo.after hostOps0 (fun b => m (c, b)) b

/-- None of the nine allocates a buffer. -/
theorem hostOps0_fresh : (hostOps0 : List (HloOp τ sig (Elt F))).Forall fun op => op.fresh = ∅ := by
  simp only [List.Forall]; repeat' constructor

/-- @main is those operations and then the region, entered at `entry`. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- The logits array is written by none of them: the region finds it as launched. -/
theorem entry_logits (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-- Nor is the segment-id array. -/
theorem entry_segments (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at grid point `t`, cut from its array as the region finds it: for the ids, image `t / 64`'s
    rows `8 (t % 64) … 8 (t % 64) + 7`; for the table, image `t / 64`'s whole [512, 15] slab. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The id window's staging buffer holds its block at every point, for any proof data over the entry contents
    whose body leaves that block in place. -/
theorem ids_found {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- So does the table window's, although it is fetched only when the image changes: in between, the block index
    has not moved and the buffer still holds the same slab. -/
theorem table_found {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-! ## From the pipeline's frame post to the frame claim's -/

/-- A run ending with every array of the pipeline at what its proof data computes and every other buffer as the
    region found it ends with both arguments as launched: the ids are an input window's array, which the pipeline
    never writes; the logits are staged by no window. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (entry_logits m c),
      ((h c).1 0).trans (((dats 0 c).arrAt_in 0 rfl _).trans ((hA c 0).trans (entry_segments m c)))⟩) h

end Cert.KernelIdeal.Region

end
-- ==== Proof.Ideal.Body.lean ====
/-
  The gather kernel's body at one grid point, and the whole run of @main.

  At a point the body loads the 8 × 512 block of segment ids and the image's [512, 15] three-term table whole,
  builds the ids' one-hot rows against 0 … 511, multiplies them into the table, adds the three column groups and
  stores the [8, 512, 5] result over the whole output block (it also loads that block first, and drops what it
  read). So after the body the output's staging buffer holds ONE function of the two input blocks (`leaves`), and
  the inputs' buffers are as found. That is the proof data of the pipeline; with it the library's frame run gives
  @main's run: it terminates, faults nowhere, ends with the output array at the blocks the points wrote back and
  every other buffer as the region found it — in particular both arguments as launched.
-/
import proofs.«424319_j55310588838069_3_alg».proof.Proof.Ideal.Entry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev idsRect : Rect S1x8x512 := Rect.unit (s := S1x8x512) ![0, 0, 0] S1x8x512.size inb_S1x8x512_S1x8x512_0_0_0
abbrev tableRect : Rect S1x512x15 := Rect.unit (s := S1x512x15) ![0, 0, 0] S1x512x15.size inb_S1x512x15_S1x512x15_0_0_0
abbrev outRect : Rect S1x8x512x5 := Rect.unit (s := S1x8x512x5) ![0, 0, 0, 0] S1x8x512x5.size inb_S1x8x512x5_S1x8x512x5_0_0_0_0

/-! ## What the body leaves in the output's buffer -/

/-- The output block after the body, from the two input blocks: its one store, of the body's arithmetic on what
    the two loads read. -/
def leaves (ids : Vec F S1x8x512 .i32) (table : Vec F S1x512x15 .bf16) : Vec F S1x8x512x5 .f32 :=
  View.canon [⟨outRect, k0_pay1 (View.ld ids idsRect) (View.ld table tableRect)⟩]

/-- That store's rectangle is the whole block. -/
theorem out_covered (p : Vec F S1x8x512x5 .f32) (y : S1x8x512x5.Idx) :
    ∃ pc ∈ ([⟨outRect, p⟩] : List (View.Piece (Elt F) S1x8x512x5 .f32)), y ∈ pc.1.set :=
  View.cover_of_tiled [⟨outRect, p⟩] S1x8x512x5.size (by rfl) y

/-! ## The body's triple -/

set_option maxHeartbeats 1000000 in
/-- On whole staging memrefs, the inputs' at contents `ids` and `table` and the output's at anything, the body runs
    to its continuation with the inputs' as they were and the output's at `leaves ids table`. -/
theorem body_runs (c : Dev nD) (E : Set ℕ) (i : grid0.Coords)
    (arg2 : Memref sig .tc .vmem S1x8x512 .i32) (harg2 : arg2.IsWhole)
    (arg3 : Memref sig .tc .vmem S1x512x15 .bf16) (harg3 : arg3.IsWhole)
    (arg4 : Memref sig .tc .vmem S1x8x512x5 .f32) (harg4 : arg4.IsWhole)
    (ids : Vec F S1x8x512 .i32) (table : Vec F S1x512x15 .bf16) (K : PUnit → sProp 𝕄) :
    iprop(owns (c : Thread nD τ) arg2 fullShare ids ∗ owns (c : Thread nD τ) arg3 fullShare table
        ∗ (∃ d, owns (c : Thread nD τ) arg4 fullShare d)
        ∗ (iprop(owns (c : Thread nD τ) arg2 fullShare ids ∗ owns (c : Thread nD τ) arg3 fullShare table
            ∗ owns (c : Thread nD τ) arg4 fullShare (leaves ids table)) -∗ K ⟨⟩))
      ⊢ wp frame (wpE (defs₀ (F := F)) Variants.none c none) E (cc0__gather_kernel i arg2 harg2 arg3 harg3 arg4 harg4) K := by
  simp only [cc0__gather_kernel_eq_skeleton]; unfold cc0__gather_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_covered _)

/-! ## The pipeline's proof data -/

/-- On core `c`: the arrays as the region finds them; after the body at point `t` each input's buffer at its block
    and the output's at `leaves` of the two; the scoped rest and the generator register untouched; nothing owed;
    full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => leaves (blockAt m c 0 t) (blockAt m c 1 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_ids (c : Dev nD) (t : Fin cfg0.N) : (dats m 0 c).after 0 t = blockAt m c 0 t := by dsimp only [dats]
theorem after_table (c : Dev nD) (t : Fin cfg0.N) : (dats m 0 c).after 1 t = blockAt m c 1 t := by dsimp only [dats]
theorem after_out (c : Dev nD) (t : Fin cfg0.N) :
    (dats m 0 c).after 2 t = leaves (blockAt m c 0 t) (blockAt m c 1 t) := by dsimp only [dats]

theorem before_ids (c : Dev nD) (t : Fin cfg0.N) (d) : (dats m 0 c).before 0 t d = blockAt m c 0 t :=
  ids_found m (dats m 0 c) (dats_A m c 0) (after_ids m c) t d
theorem before_table (c : Dev nD) (t : Fin cfg0.N) (d) : (dats m 0 c).before 1 t d = blockAt m c 1 t :=
  table_found m (dats m 0 c) (dats_A m c 1) (after_table m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_ids, before_table]
  rw [show (dats m 0 c).Φ t.succ = (dats m 0 c).Φ t.castSucc from rfl,
    show (dats m 0 c).owesAt () t.succ = (dats m 0 c).owesAt () t.castSucc from rfl,
    after_ids, after_table, after_out]
  iintro ⟨HΦ, Ho, ⟨%d0, H0⟩, ⟨%d1, H1⟩, ⟨%d2, H2⟩⟩
  iapply (body_runs c Set.univ _ _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, faulting nowhere, with
    every array of the pipeline at what the proof data computes and every other unscoped buffer as the region
    found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := dats_A m) (hΦ := fun _ _ => rfl)

/-- The frame claim's statement, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (dats_A m) (run_main m ρ)

end Cert.KernelIdeal.Region

end
-- ==== Proof.Ideal.Table.lean ====
/-
  The three-term table the kernel's @main builds from the logits, over the extended reals.

  @main views the [8192, 5] logits as [16, 512, 5] and lays three arrays side by side along the last axis: the
  logits rounded to bf16; the residual of that rounding, rounded; the residual of THAT rounding, rounded. Over the
  extended reals a change of float format is the identity, so the three groups of five columns hold  v,  v − v  and
  (v − v) − (v − v)  for the logit v at the same image, row and column; and for a real v they add up to v.
-/
import proofs.«424319_j55310588838069_3_alg».proof.Proof.Ideal.Entry
import Idealize.ShloMosaic.Lib.ValueIdx
import Idealize.ShloMosaic.Lib.Pipeline.Value
import Idealize.ShloMosaic.Lib.StableHlo.Run

noncomputable section

namespace Cert.KernelIdeal.Table

open Cert.KernelIdeal Cert.KernelIdeal.Gen Cert.KernelIdeal.Region
open Idealize.ShloMosaic Idealize.ShloMosaic.TcCoe Idealize.ShloMosaic.ValueIdx Idealize.SL.Sem
open Idealize.ShloMosaic.StableHlo

variable {F : FTy → Type} [FloatOps F]

/-- The value rounded to bf16. -/
def hi (v : FVec F S16x512x5 .f32) : FVec F S16x512x5 .bf16 := truncf .bf16 v bitsLt_bf16_f32
/-- What that rounding left, -/
def rest1 (v : FVec F S16x512x5 .f32) : FVec F S16x512x5 .f32 := subf v (extf .f32 (hi v) bitsLt_bf16_f32)
/-- rounded; -/
def mid (v : FVec F S16x512x5 .f32) : FVec F S16x512x5 .bf16 := truncf .bf16 (rest1 v) bitsLt_bf16_f32
/-- what that left, -/
def rest2 (v : FVec F S16x512x5 .f32) : FVec F S16x512x5 .f32 := subf (rest1 v) (extf .f32 (mid v) bitsLt_bf16_f32)
/-- rounded. -/
def lo (v : FVec F S16x512x5 .f32) : FVec F S16x512x5 .bf16 := truncf .bf16 (rest2 v) bitsLt_bf16_f32

/-- The three side by side: [16, 512, 15]. -/
def threeTerms (v : FVec F S16x512x5 .f32) : FVec F S16x512x15 .bf16 :=
  concatenate S16x512x15 2 [⟨S16x512x5, hi v⟩, ⟨S16x512x5, mid v⟩, ⟨S16x512x5, lo v⟩]
    concatenates_S16x512x5_S16x512x5_S16x512x5_S16x512x15_d2

variable (m : (ℓ : Loc nD τ sig) → Buf (Elt F) ℓ)

/-- The logits as @main views them: [16, 512, 5]. -/
def logits3 (c : Dev nD) : FVec F S16x512x5 .f32 :=
  shapeCast S16x512x5 (m ((c : Thread nD τ).loc main_arg0) : FVec F S8192x5 .f32) shapeCasts_S8192x5_S16x512x5

/-- What the region finds in the table's buffer. -/
theorem entry_table (c : Dev nD) : (entry m c main_v8 : FVec F S16x512x15 .bf16) = threeTerms (logits3 m c) := by
  dsimp only [entry, hostOps0]
  after_results
  rfl

/-! ## At an index, over the extended reals -/

/-- Columns 0 … 4: the logit itself. -/
theorem threeTerms_hi (v : FVec Ideal S16x512x5 .f32) (i : Fin 16) (k : Fin 512) (c : Fin 5) :
    threeTerms v (ix3 i k (⟨c.val, by omega⟩ : Fin 15)) = v (ix3 i k c) := by
  unfold threeTerms
  exact concatenate_apply_piece (2 : Fin S16x512x15.rank) _ _ (ix3 i k (⟨c.val, by omega⟩ : Fin 15)) 0 (by show (0 : Nat) < 3; omega)
    S16x512x5 (hi v) rfl rfl 0 rfl (ix3 i k c)
    (fun b hb => by
      match b with
      | ⟨0, _⟩ => rfl
      | ⟨1, _⟩ => rfl
      | ⟨2, _⟩ => exact absurd rfl hb)
    (by show 0 + c.val = c.val; omega)

/-- Columns 5 … 9: the logit less itself. -/
theorem threeTerms_mid (v : FVec Ideal S16x512x5 .f32) (i : Fin 16) (k : Fin 512) (c : Fin 5) :
    threeTerms v (ix3 i k (⟨5 + c.val, by omega⟩ : Fin 15)) = v (ix3 i k c) - v (ix3 i k c) := by
  unfold threeTerms
  exact concatenate_apply_piece (2 : Fin S16x512x15.rank) _ _ (ix3 i k (⟨5 + c.val, by omega⟩ : Fin 15)) 1 (by show (1 : Nat) < 3; omega)
    S16x512x5 (mid v) rfl rfl 5 rfl (ix3 i k c)
    (fun b hb => by
      match b with
      | ⟨0, _⟩ => rfl
      | ⟨1, _⟩ => rfl
      | ⟨2, _⟩ => exact absurd rfl hb)
    (by show 5 + c.val = 5 + c.val; rfl)

/-- Columns 10 … 14: that difference less itself. -/
theorem threeTerms_lo (v : FVec Ideal S16x512x5 .f32) (i : Fin 16) (k : Fin 512) (c : Fin 5) :
    threeTerms v (ix3 i k (⟨10 + c.val, by omega⟩ : Fin 15))
      = (v (ix3 i k c) - v (ix3 i k c)) - (v (ix3 i k c) - v (ix3 i k c)) := by
  unfold threeTerms
  exact concatenate_apply_piece (2 : Fin S16x512x15.rank) _ _ (ix3 i k (⟨10 + c.val, by omega⟩ : Fin 15)) 2 (by show (2 : Nat) < 3; omega)
    S16x512x5 (lo v) rfl rfl 10 rfl (ix3 i k c)
    (fun b hb => by
      match b with
      | ⟨0, _⟩ => rfl
      | ⟨1, _⟩ => rfl
      | ⟨2, _⟩ => exact absurd rfl hb)
    (by show 10 + c.val = 10 + c.val; rfl)

/-- For a real number the three terms add up to it: the two residuals are zero. -/
theorem three_add (v : EReal) (hv : ∃ r : ℝ, v = (r : EReal)) : v + (v - v) + ((v - v) - (v - v)) = v := by
  obtain ⟨r, rfl⟩ := hv
  rw [← EReal.coe_sub, sub_self, EReal.coe_zero, sub_zero, add_zero, add_zero]

/-- A view of an array of real numbers holds real numbers. -/
theorem logits3_real (c : Dev nD) (m : (ℓ : Loc nD τ sig) → Buf (Elt Ideal) ℓ)
    (hreal : ∀ i, ∃ r : ℝ, (m ((c : Thread nD τ).loc main_arg0) : FVec Ideal S8192x5 .f32) i = (r : EReal))
    (j : S16x512x5.Idx) : ∃ r : ℝ, logits3 m c j = (r : EReal) := by
  unfold logits3 shapeCast
  exact hreal _

end Cert.KernelIdeal.Table

end
-- ==== Proof.SegmentIds.lean ====
/-
  Segment ids as 32-bit words.

  An id that is not negative names a row of the 512-row table: its value, or 511 when it is larger (`row`). The
  kernel gets there by a signed maximum with 0 and a signed minimum with 511 (`clip`), and the clipped word is lane
  `k`'s number exactly when the id names row `k`. The reference first wraps a negative index (adds the axis's extent
  when below 0), which does nothing to an id that is not negative, and its gather then bounds the start index to the
  axis, which is `row` again.
-/
import Idealize.ShloMosaic.PureOps.Ideal
import Idealize.ShloMosaic.Lib.StableHlo.Predicate

namespace Cert.SegmentIds

open Idealize.ShloMosaic

/-- Read signed, the word is not negative. -/
def NonNeg (w : BitVec 32) : Prop := 0 ≤ w.toInt

/-- A word read signed is its unsigned value, or that less 2³² from 2³¹ on. -/
theorem toInt_cases (w : BitVec 32) :
    (w.toInt = (w.toNat : Int) ∧ w.toNat < 2 ^ 31) ∨ (w.toInt = (w.toNat : Int) - 2 ^ 32 ∧ 2 ^ 31 ≤ w.toNat) := by
  have hlt := w.isLt
  rw [BitVec.toInt_eq_toNat_cond]
  split
  · left; constructor <;> omega
  · right; constructor <;> omega

theorem NonNeg.toInt_eq {w : BitVec 32} (h : NonNeg w) : w.toInt = (w.toNat : Int) := by
  unfold NonNeg at h
  rcases toInt_cases w with ⟨e, _⟩ | ⟨e, hb⟩
  · exact e
  · have := w.isLt; omega

private theorem toInt_zero : (0#32 : BitVec 32).toInt = 0 := by decide
private theorem toInt_511 : (511#32 : BitVec 32).toInt = 511 := by decide

theorem NonNeg.not_slt_zero {w : BitVec 32} (h : NonNeg w) : w.slt 0#32 = false := by
  rw [← Bool.not_eq_true]
  simp only [BitVec.slt, toInt_zero, decide_eq_true_eq]
  unfold NonNeg at h; omega

/-- From the comparison a precondition makes of an id: at least 0. -/
theorem nonNeg_of_cmp {w : BitVec 32} (hge : IntOp.cmpi .sge w 0#32 = 1#1) : NonNeg w := by
  unfold IntOp.cmpi at hge
  rw [StableHlo.Predicate.ofBool_eq_one_iff] at hge
  simp only [BitVec.sle, toInt_zero, decide_eq_true_eq] at hge
  exact hge

/-- A number below 2³¹, as a word, is not negative. -/
theorem nonNeg_ofNat (n : Nat) (hn : n < 2 ^ 31) : NonNeg (BitVec.ofNat 32 n) := by
  unfold NonNeg
  rw [StableHlo.Predicate.toInt_ofNat_small n hn]
  omega

/-- The reference's wrap of a negative index (add the axis's extent when below 0) leaves such a word alone. -/
theorem wrap_eq {w : BitVec 32} (h : NonNeg w) (a : BitVec 32) :
    Scalar.select (IntOp.cmpi .slt w 0#32) a w = w := by
  unfold Scalar.select IntOp.cmpi
  rw [h.not_slt_zero]
  rfl

/-- The table row an id names: its signed value, kept inside 0 … 511. -/
def row (w : BitVec 32) : Fin 512 := ⟨min w.toInt.toNat 511, by omega⟩

/-- The kernel's clip: a signed maximum with 0, then a signed minimum with 511. -/
def clip (w : BitVec 32) : BitVec 32 := IntOp.minsi 511#32 (IntOp.maxsi 0#32 w)

/-- The clip of an id that is not negative is, as a number, the row it names. -/
theorem clip_toNat {w : BitVec 32} (h : NonNeg w) : (clip w).toNat = (row w).val := by
  have e := h.toInt_eq
  have hmax : IntOp.maxsi 0#32 w = w := by
    unfold IntOp.maxsi
    rw [h.not_slt_zero]; rfl
  unfold clip
  rw [hmax]
  unfold IntOp.minsi
  show _ = min w.toInt.toNat 511
  by_cases hc : (511#32 : BitVec 32).slt w = true
  · rw [if_pos hc]
    simp only [BitVec.slt, toInt_511, decide_eq_true_eq] at hc
    show (511#32 : BitVec 32).toNat = _
    rw [e, Int.toNat_natCast]
    have : (511#32 : BitVec 32).toNat = 511 := by decide
    rw [this]; omega
  · rw [if_neg hc]
    simp only [BitVec.slt, toInt_511, decide_eq_true_eq] at hc
    rw [e, Int.toNat_natCast]
    omega

/-- The clipped id is lane `k`'s number exactly when the id names row `k`. -/
theorem eq_lane_iff {w : BitVec 32} (h : NonNeg w) (k : Fin 512) :
    IntOp.cmpi .eq (clip w) (BitVec.ofNat 32 k.val) = 1#1 ↔ row w = k := by
  rw [StableHlo.Predicate.cmpi_eq_iff]
  have hk : k.val < 512 := k.isLt
  have hr : (row w).val < 512 := (row w).isLt
  constructor
  · intro e
    apply Fin.ext
    rw [← clip_toNat h, e, BitVec.toNat_ofNat]
    omega
  · intro e
    apply BitVec.eq_of_toNat_eq
    rw [BitVec.toNat_ofNat, ← e, clip_toNat h]
    omega

/-- A compare's bit widened to a word and read as a number: one when set, zero when clear. -/
theorem bit_value (b : BitVec 1) : (((b.setWidth 32).toInt : ℝ) : EReal) = if b = 1#1 then 1 else 0 := by
  by_cases hb : b = 1#1
  · subst hb; rw [if_pos rfl]
    have : ((1#1 : BitVec 1).setWidth 32).toInt = 1 := by decide
    rw [this]; norm_num
  · rw [if_neg hb]
    have h0 : b = 0#1 := by
      rcases BitVec.eq_zero_or_eq_one b with h | h
      · exact h
      · exact absurd h hb
    subst h0
    have : ((0#1 : BitVec 1).setWidth 32).toInt = 0 := by decide
    rw [this]; norm_num

end Cert.SegmentIds
-- ==== Proof.Ideal.Payload.lean ====
/-
  The gather kernel's arithmetic at one output element, over the extended reals.

  The body clips the block's ids to 0 … 511, compares each with the lane numbers 0 … 511 to get a 4096 × 512
  indicator matrix (one row per pixel of the block, a single one in the lane the pixel's id names), multiplies it
  into the image's [512, 15] table, and adds the product's three groups of five columns. A row of the indicator has
  exactly one nonzero entry, so its product with a table column is that column's entry in the named row: element
  (y, x, c) of the block is  table[row, c] + table[row, c + 5] + table[row, c + 10]  with row the id at (y, x).
-/
import proofs.«424319_j55310588838069_3_alg».proof.Proof.Gen.KernelIdeal.Skeleton
import proofs.«424319_j55310588838069_3_alg».proof.Proof.SegmentIds
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PointValue

open Cert.KernelIdeal Cert.KernelIdeal.Gen Cert.SegmentIds
open Idealize.ShloMosaic Idealize.ShloMosaic.TcCoe Idealize.ShloMosaic.ValueIdx Idealize.SL.Sem

variable {F : FTy → Type} [FloatOps F]

/-! ## The payload's pieces, by name -/

/-- The block's ids kept inside 0 … 511. -/
def clipped (ids : Vec F S1x8x512 .i32) : IVec S8x512 32 :=
  minsi (broadcast S8x512 511#32) (maxsi (broadcast S8x512 0#32) (shapeCast S8x512 ids shapeCasts_S1x8x512_S8x512))

/-- The indicator matrix: row `512 y + x` has its one in the lane that pixel (y, x)'s id names. -/
def indicator (ids : Vec F S1x8x512 .i32) : FVec F S4096x512 .bf16 :=
  shapeCast S4096x512 (truncf .bf16 (sitofp .f32 (extui 32 (cmpi .eq
      (broadcastTo S8x512x512 (shapeCast S8x512x1 (clipped (F := F) ids) shapeCasts_S8x512_S8x512x1) broadcasts_S8x512x1_S8x512x512)
      (iota .tc S8x512x512 32 [2] iota_S8x512x512_d2_w32)) natLt_1_32)) bitsLt_bf16_f32) shapeCasts_S8x512x512_S4096x512

/-- The indicator times the image's table. -/
def picked (ids : Vec F S1x8x512 .i32) (tbl : Vec F S1x512x15 .bf16) : FVec F S4096x15 .f32 :=
  matmul dot_S4096x512_S512x15_S4096x15_1_0_0_1_n_n none (indicator ids)
    (shapeCast S512x15 tbl shapeCasts_S1x512x15_S512x15 : FVec F S512x15 .bf16) (constant S4096x15 .f32 0x00000000#32)

/-- The body's stored value is the three column groups of that product added, laid out [1, 8, 512, 5]. -/
theorem pay_eq (ids : Vec F S1x8x512 .i32) (tbl : Vec F S1x512x15 .bf16) :
    k0_pay1 ids tbl = shapeCast S1x8x512x5 (shapeCast S8x512x5
      (addf (addf (extractStridedSlice S4096x5 ![0, 0] (picked ids tbl) slices_S4096x15_o0_0_S4096x5)
                  (extractStridedSlice S4096x5 ![0, 5] (picked ids tbl) slices_S4096x15_o0_5_S4096x5))
            (extractStridedSlice S4096x5 ![0, 10] (picked ids tbl) slices_S4096x15_o0_10_S4096x5))
      shapeCasts_S4096x5_S8x512x5) shapeCasts_S8x512x5_S1x8x512x5 := rfl

/-! ## Each piece at an index -/

/-- Entry (y, x) of the clipped ids is the clip of the block's id there. -/
theorem clipped_at (ids : Vec F S1x8x512 .i32) (y : Fin 8) (x : Fin 512) :
    clipped ids (ix2 y x) = clip (ids (ix3 (0 : Fin 1) y x)) := by
  unfold clipped clip
  show IntOp.minsi 511#32 (IntOp.maxsi 0#32 (shapeCast S8x512 ids shapeCasts_S1x8x512_S8x512 (ix2 y x))) = _
  rw [shapeCast_1ab_ab_apply]

/-- Row `512 y + x` of the indicator: one in the lane the pixel's id names, zero elsewhere. -/
theorem indicator_at (ids : Vec Ideal S1x8x512 .i32) (y : Fin 8) (x : Fin 512) (k : Fin 512)
    (h : NonNeg (ids (ix3 (0 : Fin 1) y x))) (r : Fin 4096) (hr : r.val = y.val * 512 + x.val) :
    indicator (F := Ideal) ids (ix2 r k) = if row (ids (ix3 (0 : Fin 1) y x)) = k then 1 else 0 := by
  unfold indicator
  rw [shapeCast_apply _ shapeCasts_S8x512x512_S4096x512 (ix2 r k) (ix3 y x k) (by
    rw [Shape.rowMajor_val_three, Shape.rowMajor_val_two]
    show (y.val * 512 + x.val) * 512 + k.val = r.val * 512 + k.val
    rw [hr])]
  show ((((IntOp.cmpi .eq
      (broadcastTo S8x512x512 (shapeCast S8x512x1 (clipped (F := Ideal) ids) shapeCasts_S8x512_S8x512x1) broadcasts_S8x512x1_S8x512x512 (ix3 y x k))
      (iota .tc S8x512x512 32 [2] iota_S8x512x512_d2_w32 (ix3 y x k))).setWidth 32).toInt : ℝ) : EReal) = _
  rw [bit_value]
  rw [broadcastTo_apply _ broadcasts_S8x512x1_S8x512x512 (ix3 y x k) (ix3 y x (0 : Fin 1)) (fun a => by
    match a with
    | ⟨0, _⟩ => show y.val = if (8 : Nat) = 1 then 0 else y.val; rw [if_neg (by decide)]
    | ⟨1, _⟩ => show x.val = if (512 : Nat) = 1 then 0 else x.val; rw [if_neg (by decide)]
    | ⟨2, _⟩ => show 0 = if (1 : Nat) = 1 then 0 else k.val; rw [if_pos rfl])]
  rw [shapeCast_apply _ shapeCasts_S8x512_S8x512x1 (ix3 y x (0 : Fin 1)) (ix2 y x) (by
    rw [Shape.rowMajor_val_three, Shape.rowMajor_val_two]
    show y.val * 512 + x.val = (y.val * 512 + x.val) * 1 + 0
    omega)]
  rw [iota_single_apply, clipped_at ids y x]
  exact if_congr (eq_lane_iff h k) rfl rfl

/-! ## The product: which entries of the two factors meet -/

theorem lhs_axis0 (j : S4096x15.Idx) (k : dot_S4096x512_S512x15_S4096x15_1_0_0_1_n_n.contr.Idx) :
    (dot_S4096x512_S512x15_S4096x15_1_0_0_1_n_n.lhsIdx j k 0).val = (j 0).val := by
  unfold DotDims.lhsIdx
  rw [dif_neg (show ¬ (0 : Fin S4096x512.rank) ∈ dot_S4096x512_S512x15_S4096x15_1_0_0_1_n_n.lhsBatch by decide),
    dif_pos (show (0 : Fin S4096x512.rank) ∈ dot_S4096x512_S512x15_S4096x15_1_0_0_1_n_n.lhsNonContracting by decide)]
  rfl

theorem lhs_axis1 (j : S4096x15.Idx) (k : dot_S4096x512_S512x15_S4096x15_1_0_0_1_n_n.contr.Idx) :
    (dot_S4096x512_S512x15_S4096x15_1_0_0_1_n_n.lhsIdx j k 1).val = (k ⟨0, Nat.one_pos⟩).val :=
  DotDims.lhsIdx_val_of_single dot_S4096x512_S512x15_S4096x15_1_0_0_1_n_n (cl := 1) rfl j k

theorem rhs_axis0 (j : S4096x15.Idx) (k : dot_S4096x512_S512x15_S4096x15_1_0_0_1_n_n.contr.Idx) :
    (dot_S4096x512_S512x15_S4096x15_1_0_0_1_n_n.rhsIdx j k 0).val = (k ⟨0, Nat.one_pos⟩).val :=
  DotDims.rhsIdx_val_of_single dot_S4096x512_S512x15_S4096x15_1_0_0_1_n_n (cr := 0) rfl j k

theorem rhs_axis1 (j : S4096x15.Idx) (k : dot_S4096x512_S512x15_S4096x15_1_0_0_1_n_n.contr.Idx) :
    (dot_S4096x512_S512x15_S4096x15_1_0_0_1_n_n.rhsIdx j k 1).val = (j 1).val := by
  unfold DotDims.rhsIdx
  rw [dif_neg (show ¬ (1 : Fin S512x15.rank) ∈ dot_S4096x512_S512x15_S4096x15_1_0_0_1_n_n.rhsBatch by decide),
    dif_pos (show (1 : Fin S512x15.rank) ∈ dot_S4096x512_S512x15_S4096x15_1_0_0_1_n_n.rhsNonContracting by decide)]
  rfl

/-- At output (r, c) and contraction position k the left factor is read at (r, k), -/
theorem lhs_index (r : Fin 4096) (c : Fin 15) (k : Fin 512) :
    dot_S4096x512_S512x15_S4096x15_1_0_0_1_n_n.lhsIdx (ix2 r c)
      ((contrEquiv1 dot_S4096x512_S512x15_S4096x15_1_0_0_1_n_n 512 rfl rfl).symm k) = ix2 r k := by
  funext a; apply Fin.ext
  match a with
  | ⟨0, _⟩ => exact lhs_axis0 _ _
  | ⟨1, _⟩ => exact (lhs_axis1 _ _).trans (contrEquiv1_symm_val dot_S4096x512_S512x15_S4096x15_1_0_0_1_n_n 512 rfl rfl k)

/-- and the right factor at (k, c). -/
theorem rhs_index (r : Fin 4096) (c : Fin 15) (k : Fin 512) :
    dot_S4096x512_S512x15_S4096x15_1_0_0_1_n_n.rhsIdx (ix2 r c)
      ((contrEquiv1 dot_S4096x512_S512x15_S4096x15_1_0_0_1_n_n 512 rfl rfl).symm k) = ix2 k c := by
  funext a; apply Fin.ext
  match a with
  | ⟨0, _⟩ => exact (rhs_axis0 _ _).trans (contrEquiv1_symm_val dot_S4096x512_S512x15_S4096x15_1_0_0_1_n_n 512 rfl rfl k)
  | ⟨1, _⟩ => exact rhs_axis1 _ _

/-- The product at (512 y + x, c): the table's entry in the row the pixel's id names — the one term of the sum over
    the 512 lanes whose indicator factor is not zero. -/
theorem picked_at (ids : Vec Ideal S1x8x512 .i32) (tbl : Vec Ideal S1x512x15 .bf16) (y : Fin 8) (x : Fin 512) (c : Fin 15)
    (h : NonNeg (ids (ix3 (0 : Fin 1) y x))) (r : Fin 4096) (hr : r.val = y.val * 512 + x.val) :
    picked (F := Ideal) ids tbl (ix2 r c) = tbl (ix3 (0 : Fin 1) (row (ids (ix3 (0 : Fin 1) y x))) c) := by
  unfold picked
  show FloatOps.matmul dot_S4096x512_S512x15_S4096x15_1_0_0_1_n_n none (indicator (F := Ideal) ids)
    (shapeCast S512x15 tbl shapeCasts_S1x512x15_S512x15 : FVec Ideal S512x15 .bf16) (constant S4096x15 .f32 0x00000000#32) (ix2 r c) = _
  rw [Ideal.matmul_constant_zero_apply]
  calc _ = ∑ k : Fin 512, (if row (ids (ix3 (0 : Fin 1) y x)) = k then (1 : EReal) else 0) * tbl (ix3 (0 : Fin 1) k c) := by
        rw [← Equiv.sum_comp (contrEquiv1 dot_S4096x512_S512x15_S4096x15_1_0_0_1_n_n 512 rfl rfl).symm]
        refine Finset.sum_congr rfl (fun k _ => ?_)
        rw [lhs_index, rhs_index, indicator_at ids y x k h r hr, shapeCast_1ab_ab_apply]
    _ = _ := by
        rw [Finset.sum_eq_single (row (ids (ix3 (0 : Fin 1) y x)))]
        · rw [if_pos rfl, one_mul]
        · intro k _ hk; rw [if_neg (Ne.symm hk), zero_mul]
        · intro hn; exact absurd (Finset.mem_univ _) hn

/-! ## The stored element -/

/-- Element (y, x, c) of what the body stores: the named row's entries in columns c, c + 5 and c + 10, added. -/
theorem stored_at (ids : Vec Ideal S1x8x512 .i32) (tbl : Vec Ideal S1x512x15 .bf16) (y : Fin 8) (x : Fin 512) (c : Fin 5)
    (h : NonNeg (ids (ix3 (0 : Fin 1) y x))) :
    k0_pay1 (F := Ideal) ids tbl (ix4 (0 : Fin 1) y x c)
      = tbl (ix3 (0 : Fin 1) (row (ids (ix3 (0 : Fin 1) y x))) ⟨c.val, by omega⟩)
        + tbl (ix3 (0 : Fin 1) (row (ids (ix3 (0 : Fin 1) y x))) ⟨5 + c.val, by omega⟩)
        + tbl (ix3 (0 : Fin 1) (row (ids (ix3 (0 : Fin 1) y x))) ⟨10 + c.val, by omega⟩) := by
  have hr : (⟨y.val * 512 + x.val, by omega⟩ : Fin 4096).val = y.val * 512 + x.val := rfl
  rw [pay_eq, shapeCast_abc_1abc_apply]
  rw [shapeCast_apply _ shapeCasts_S4096x5_S8x512x5 (ix3 y x c) (ix2 (⟨y.val * 512 + x.val, by omega⟩ : Fin 4096) c) (by
    rw [Shape.rowMajor_val_three, Shape.rowMajor_val_two]
    show (y.val * 512 + x.val) * 5 + c.val = (y.val * 512 + x.val) * 5 + c.val
    rfl)]
  rw [addf_apply, addf_apply]
  rw [slice2_axis1_apply 0 _ _ _ c ⟨c.val, by omega⟩ (by simp),
    slice2_axis1_apply 5 _ _ _ c ⟨5 + c.val, by omega⟩ rfl,
    slice2_axis1_apply 10 _ _ _ c ⟨10 + c.val, by omega⟩ rfl]
  rw [picked_at ids tbl y x _ h _ hr, picked_at ids tbl y x _ h _ hr, picked_at ids tbl y x _ h _ hr]

end Cert.KernelIdeal.PointValue

end
-- ==== Proof.Gathered.lean ====
/-
  The gather itself, as one function.

  Given the logits viewed [16, 512, 5] (image, superpixel, class) and the segment ids [16, 512, 512] (image, y, x),
  the result at (image, y, x, class) is the logit of that image and class in the row the pixel's id names.
-/
import proofs.«424319_j55310588838069_3_alg».proof.Proof.SegmentIds
import Idealize.ShloMosaic.Lib.ValueIdx

noncomputable section

namespace Cert.SegmentIds

open Idealize.ShloMosaic Idealize.ShloMosaic.ValueIdx

/-- out[i, y, x, c] = logits[i, row(segments[i, y, x]), c]. -/
def gathered (v : (⟨3, ![16, 512, 5]⟩ : Shape).Idx → EReal) (seg : (⟨3, ![16, 512, 512]⟩ : Shape).Idx → BitVec 32) :
    (⟨4, ![16, 512, 512, 5]⟩ : Shape).Idx → EReal :=
  fun j => v (ix3 (j 0) (row (seg (ix3 (j 0) (j 1) (j 2)))) (j 3))

theorem gathered_apply (v : (⟨3, ![16, 512, 5]⟩ : Shape).Idx → EReal) (seg : (⟨3, ![16, 512, 512]⟩ : Shape).Idx → BitVec 32)
    (i : Fin 16) (y x : Fin 512) (c : Fin 5) :
    gathered v seg (ix4 i y x c) = v (ix3 i (row (seg (ix3 i y x))) c) := rfl

end Cert.SegmentIds

end
-- ==== Proof.Ideal.Blocks.lean ====
/-
  From the blocks to the array: the kernel's result is the gather.

  Grid point t = 64 i + b handles image i and rows 8 b … 8 b + 7: the id window's block there is those rows of image
  i's ids, the table window's block is image i's whole three-term table, and the output window's block is those
  rows of image i's result. With the arithmetic of one element (the named row's three terms, which add up to the
  logit when it is a real number) the block a point writes back is exactly that block of the gather; and every
  index of the [16, 512, 512, 5] result lies in the block of the point 64 i + y / 8. So the array ends at the gather.
-/
import proofs.«424319_j55310588838069_3_alg».proof.Proof.Ideal.Body
import proofs.«424319_j55310588838069_3_alg».proof.Proof.Ideal.Table
import proofs.«424319_j55310588838069_3_alg».proof.Proof.Ideal.Payload
import proofs.«424319_j55310588838069_3_alg».proof.Proof.Gathered

set_option maxRecDepth 16384

noncomputable section

namespace Cert.KernelIdeal.ArrayValue

open Cert.KernelIdeal Cert.KernelIdeal.Gen Cert.KernelIdeal.Region Cert.KernelIdeal.Table Cert.KernelIdeal.PointValue
open Cert.SegmentIds
open Idealize.ShloMosaic Idealize.ShloMosaic.TcCoe Idealize.ShloMosaic.ValueIdx Idealize.SL.Sem
open Idealize.ShloMosaic.Pipeline (Dat Cfg Window)

/-! ## One block, over literal shapes -/

/-- A block of ids that is rows 8 J … 8 J + 7 of image I's, and a table block that is image I's three-term table of
    real logits: the body's stored block is those rows of image I's gather. -/
theorem stored_block (ids : Vec Ideal S1x8x512 .i32) (tbl : Vec Ideal S1x512x15 .bf16)
    (v : FVec Ideal S16x512x5 .f32) (seg : IVec S16x512x512 32) (I : Fin 16) (J : Fin 64)
    (hids : ∀ (y : Fin 8) (x : Fin 512), ids (ix3 (0 : Fin 1) y x) = seg (ix3 I (⟨J.val * 8 + y.val, by omega⟩ : Fin 512) x))
    (htbl : ∀ (k : Fin 512) (col : Fin 15), tbl (ix3 (0 : Fin 1) k col) = threeTerms v (ix3 I k col))
    (hreal : ∀ j, ∃ r : ℝ, v j = (r : EReal)) (hin : ∀ j, NonNeg (seg j))
    (y : Fin 8) (x : Fin 512) (c : Fin 5) :
    k0_pay1 (F := Ideal) ids tbl (ix4 (0 : Fin 1) y x c)
      = gathered v seg (ix4 I (⟨J.val * 8 + y.val, by omega⟩ : Fin 512) x c) := by
  have hr : NonNeg (ids (ix3 (0 : Fin 1) y x)) := by rw [hids]; exact hin _
  rw [stored_at ids tbl y x c hr, htbl, htbl, htbl, threeTerms_hi, threeTerms_mid, threeTerms_lo,
    three_add _ (hreal _), gathered_apply, hids]

/-! ## Where the windows' blocks sit -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 1024 grid points: point t works on image t / 64 and row group t % 64;
    the id block follows the output block, the table block follows its image. -/
theorem index_facts : ∀ t : Fin cfg0.N,
    win0_2.index t (0 : Fin 4) = t.val / 64 ∧ win0_2.index t (1 : Fin 4) = t.val % 64
    ∧ win0_2.index t (2 : Fin 4) = 0 ∧ win0_2.index t (3 : Fin 4) = 0
    ∧ win0_0.index t (0 : Fin 3) = t.val / 64 ∧ win0_0.index t (1 : Fin 3) = t.val % 64 ∧ win0_0.index t (2 : Fin 3) = 0
    ∧ win0_1.index t (0 : Fin 3) = t.val / 64 ∧ win0_1.index t (1 : Fin 3) = 0 ∧ win0_1.index t (2 : Fin 3) = 0
    ∧ t.val < 1024 :=
  (by decide +kernel : ∀ t : Fin grid0.N, _)

variable (m : (ℓ : Loc nD τ sig) → Buf (Elt Ideal) ℓ) (ρ : Dev nD → PrngReg)

/-- The segment ids as launched. -/
abbrev segs (c : Dev nD) : IVec S16x512x512 32 := m ((c : Thread nD τ).loc main_arg1)

/-- The id window's block at point t: rows 8 (t % 64) … of image t / 64. -/
theorem ids_block (c : Dev nD) (t : Fin cfg0.N) (I : Fin 16) (J : Fin 64) (hI : I.val = t.val / 64) (hJ : J.val = t.val % 64)
    (y : Fin 8) (x : Fin 512) :
    (blockAt m c 0 t : Vec Ideal S1x8x512 .i32) (ix3 (0 : Fin 1) y x)
      = segs m c (ix3 I (⟨J.val * 8 + y.val, by omega⟩ : Fin 512) x) := by
  obtain ⟨-, -, -, -, e00, e01, e02, -, -, -, -⟩ := index_facts t
  show entry m c main_arg1 (((cfg0.win 0).blk t).view.emb (ix3 (0 : Fin 1) y x)) = _
  rw [entry_segments]
  refine congrArg (segs m c) (funext fun a => Fin.ext ?_)
  match a with
  | ⟨0, _⟩ => show win0_0.index t (0 : Fin 3) * 1 + 1 * 0 = I.val; omega
  | ⟨1, _⟩ => show win0_0.index t (1 : Fin 3) * 8 + 1 * y.val = J.val * 8 + y.val; omega
  | ⟨2, _⟩ => show win0_0.index t (2 : Fin 3) * 512 + 1 * x.val = x.val; omega

/-- The table window's block at point t: image t / 64's three-term table. -/
theorem table_block (c : Dev nD) (t : Fin cfg0.N) (I : Fin 16) (hI : I.val = t.val / 64) (k : Fin 512) (col : Fin 15) :
    (blockAt m c 1 t : Vec Ideal S1x512x15 .bf16) (ix3 (0 : Fin 1) k col) = threeTerms (logits3 m c) (ix3 I k col) := by
  obtain ⟨-, -, -, -, -, -, -, e10, e11, e12, -⟩ := index_facts t
  show entry m c main_v8 (((cfg0.win 1).blk t).view.emb (ix3 (0 : Fin 1) k col)) = _
  rw [entry_table]
  refine congrArg (threeTerms (logits3 m c)) (funext fun a => Fin.ext ?_)
  match a with
  | ⟨0, _⟩ => show win0_1.index t (0 : Fin 3) * 1 + 1 * 0 = I.val; omega
  | ⟨1, _⟩ => show win0_1.index t (1 : Fin 3) * 512 + 1 * k.val = k.val; omega
  | ⟨2, _⟩ => show win0_1.index t (2 : Fin 3) * 15 + 1 * col.val = col.val; omega

/-! ## What a point writes back, and the array -/

variable (hreal : ∀ (c : Dev nD) i, ∃ r : ℝ, (m ((c : Thread nD τ).loc main_arg0) : FVec Ideal S8192x5 .f32) i = (r : EReal))
  (hin : ∀ (c : Dev nD) j, NonNeg (segs m c j))

include hreal hin in
/-- Point t writes back block t of the gather. -/
theorem flushed_eq (c : Dev nD) (t : Fin cfg0.N) :
    (dats m 0 c).flushed 2 t = ((cfg0.win 2).blk t).view.read (Elt Ideal) (gathered (logits3 m c) (segs m c)) := by
  show (cfg0.win 2).cut (grid0.coords t) ((dats m 0 c).after 2 t) = _
  rw [after_out]
  unfold leaves
  rw [View.canon_unit_zero hz4]
  simp only [View.ld_unit_zero (S := S1x8x512) hz3, View.ld_unit_zero (S := S1x512x15) hz3]
  obtain ⟨e20, e21, e22, e23, -, -, -, -, -, -, ht⟩ := index_facts t
  have key : ∀ j : S1x8x512x5.Idx,
      k0_pay1 (F := Ideal) (blockAt m c 0 t) (blockAt m c 1 t) j
        = gathered (logits3 m c) (segs m c) (((cfg0.win 2).blk t).view.emb j) := by
    intro j
    obtain ⟨u, y, x, cc, rfl⟩ : ∃ (u : Fin 1) (y : Fin 8) (x : Fin 512) (cc : Fin 5), j = ix4 u y x cc :=
      ⟨j 0, j 1, j 2, j 3, eq_ix4 j⟩
    have hu : u = 0 := Subsingleton.elim _ _
    subst hu
    let I : Fin 16 := ⟨t.val / 64, by omega⟩
    let J : Fin 64 := ⟨t.val % 64, by omega⟩
    refine (stored_block _ _ (logits3 m c) (segs m c) I J (ids_block m c t I J rfl rfl) (table_block m c t I rfl)
      (logits3_real c m (hreal c)) (hin c) y x cc).trans ?_
    refine congrArg (gathered (logits3 m c) (segs m c)) (funext fun a => Fin.ext ?_)
    match a with
    | ⟨0, _⟩ => show t.val / 64 = win0_2.index t (0 : Fin 4) * 1 + 1 * 0; omega
    | ⟨1, _⟩ => show t.val % 64 * 8 + y.val = win0_2.index t (1 : Fin 4) * 8 + 1 * y.val; omega
    | ⟨2, _⟩ => show x.val = win0_2.index t (2 : Fin 4) * 512 + 1 * x.val; omega
    | ⟨3, _⟩ => show cc.val = win0_2.index t (3 : Fin 4) * 5 + 1 * cc.val; omega
  funext j
  exact key j

/-- An index of the result is in point t's block iff each coordinate is in the block's range on its axis. -/
theorem mem_block (t : Fin cfg0.N) (i : S16x512x512x5.Idx) :
    i ∈ ((cfg0.win 2).blk t).view.set ↔ ∀ a : Fin 4, win0_2.index t a * S1x8x512x5.size a ≤ (i a).val
      ∧ (i a).val < win0_2.index t a * S1x8x512x5.size a + S1x8x512x5.size a := by
  show i ∈ ((View.whole main_v9).slice (win0_2.rect t)).set ↔ _
  rw [View.set_slice_whole, Rect.mem_set_unit]
  exact Iff.rfl

/-- Every index of the result is in the block of a point that writes back. -/
theorem covered (i : S16x512x512x5.Idx) :
    ∃ t : Fin cfg0.N, (cfg0.win 2).flush t = true ∧ i ∈ ((cfg0.win 2).blk t).view.set := by
  have h0 : (i 0).val < 16 := (i 0).isLt
  have h1 : (i 1).val < 512 := (i 1).isLt
  have h2 : (i 2).val < 512 := (i 2).isLt
  have h3 : (i 3).val < 5 := (i 3).isLt
  let t : Fin cfg0.N := ⟨(i 0).val * 64 + (i 1).val / 8, by rw [show cfg0.N = 1024 from N_0]; omega⟩
  obtain ⟨e20, e21, e22, e23, -, -, -, -, -, -, -⟩ := index_facts t
  have tv : t.val = (i 0).val * 64 + (i 1).val / 8 := rfl
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 512 ≤ (i 2).val ∧ (i 2).val < win0_2.index t (2 : Fin 4) * 512 + 512; omega
  | ⟨3, _⟩ => show win0_2.index t (3 : Fin 4) * 5 ≤ (i 3).val ∧ (i 3).val < win0_2.index t (3 : Fin 4) * 5 + 5; omega

include hreal hin in
/-- The result array after the run is the gather. -/
theorem final (c : Dev nD) : (dats m 0 c).arrAt 2 cfg0.N = gathered (logits3 m c) (segs m c) :=
  (dats m 0 c).arrAt_eq_of_cover 2 (gathered (logits3 m c) (segs m c)) (fun t _ => flushed_eq m hreal hin c t) covered

include hreal hin in
/-- @main's run, read: it ends with the result at the gather of the launch contents and both arguments as launched. -/
theorem run : θ_run defs (onTc (τ := τ) (main (F := Ideal))) ⟨m, fun _ => 0, ρ⟩ fun r => ∀ c : Dev nD,
      r.2.mem ((c : Thread nD τ).loc main_v9) = gathered (logits3 m c) (segs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (final m hreal hin c),
      ((h c).2 main_arg0 (Pipeline.mem_restRefs_of main_arg0 (by decide) (by decide))).trans (entry_logits m c),
      ((h c).1 0).trans (((dats m 0 c).arrAt_in 0 rfl _).trans ((dats_A m c 0).trans (entry_segments m c)))⟩)
    (run_main m ρ)

end Cert.KernelIdeal.ArrayValue

end
-- ==== Proof.RefValue.lean ====
/-
  The reference, read at an index: it is the gather.

  The reference builds, for every pixel, the pair (image number, segment id) — each first wrapped as a negative
  index would be, which does nothing to an image number 0 … 15 or to an id that is not negative — and gathers from
  the logits viewed [16, 512, 5] the five-entry row that pair names, the gather bounding each component to its axis:
  an id past 511 reads row 511. So at (image, y, x, class) it reads the logit of that image and class in the row the
  pixel's id names.
-/
import proofs.«424319_j55310588838069_3_alg».proof.Proof.Gen.ReferenceIdeal.Read
import proofs.«424319_j55310588838069_3_alg».proof.Proof.Gathered
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.SegmentIds
open Idealize.ShloMosaic Idealize.ShloMosaic.TcCoe Idealize.ShloMosaic.ValueIdx Idealize.SL.Sem

/-! ## The pair of start indices -/

/-- Component 0 of pixel (i, y, x)'s start index: the image number. -/
theorem image_component (x1 : IVec S16x512x512 32) (i : Fin 16) (y x : Fin 512) :
    val_main_v16 (F := Ideal) x1 (ix4 i y x (0 : Fin 2)) = BitVec.ofNat 32 i.val := by
  unfold val_main_v16
  rw [concatenate_apply_piece (3 : Fin S16x512x512x2.rank) _ _ (ix4 i y x (0 : Fin 2)) 0 (by show (0 : Nat) < 2; omega)
    S16x512x512x1 (val_main_v14 (F := Ideal)) rfl rfl 0 rfl (ix4 i y x (0 : Fin 1))
    (fun b hb => by
      match b with
      | ⟨0, _⟩ => rfl
      | ⟨1, _⟩ => rfl
      | ⟨2, _⟩ => rfl
      | ⟨3, _⟩ => exact absurd rfl hb)
    (by rfl)]
  rw [val_main_v14_apply, val_main_v13_apply, val_main_v7_apply, val_main_v4_apply, val_main_v6_apply,
    val_main_v2_apply, val_main_v1_apply, val_main_v3_apply, val_main_c_apply]
  exact wrap_eq (nonNeg_ofNat i.val (by omega)) _

/-- Component 1: the pixel's id, when it is not negative. -/
theorem id_component (x1 : IVec S16x512x512 32) (i : Fin 16) (y x : Fin 512) (h : NonNeg (x1 (ix3 i y x))) :
    val_main_v16 (F := Ideal) x1 (ix4 i y x (1 : Fin 2)) = x1 (ix3 i y x) := by
  unfold val_main_v16
  rw [concatenate_apply_piece (3 : Fin S16x512x512x2.rank) _ _ (ix4 i y x (1 : Fin 2)) 1 (by show (1 : Nat) < 2; omega)
    S16x512x512x1 (val_main_v15 (F := Ideal) x1) rfl rfl 1 rfl (ix4 i y x (0 : Fin 1))
    (fun b hb => by
      match b with
      | ⟨0, _⟩ => rfl
      | ⟨1, _⟩ => rfl
      | ⟨2, _⟩ => rfl
      | ⟨3, _⟩ => exact absurd rfl hb)
    (by rfl)]
  have e : idx_main_v15 (ix4 i y x (0 : Fin 1)) = ix3 i y x :=
    funext fun a => by match a with | ⟨0, _⟩ => rfl | ⟨1, _⟩ => rfl | ⟨2, _⟩ => rfl
  rw [val_main_v15_apply, val_main_v12_apply, val_main_v9_apply, val_main_v8_apply, val_main_c_1_apply, e]
  exact wrap_eq h _

/-! ## The gather, read at an index -/

/-- The start indices are read, for pixel (i, y, x), at that pixel and the component's number. -/
theorem start_index (i : Fin 16) (y x : Fin 512) (cc : Fin 5)
    (k : Fin gather_S16x512x5_S16x512x512x2_S16x512x512x5_3_01_n_n_01_3_115.startIndexMap.length) :
    gather_S16x512x5_S16x512x512x2_S16x512x512x5_3_01_n_n_01_3_115.siIdx (ix4 i y x cc) k
      = ix4 i y x (⟨k.val, k.isLt⟩ : Fin 2) := by
  funext b
  match b with
  | ⟨0, hb⟩ =>
    unfold GatherDims.siIdx
    rw [dif_neg (show ¬ ((⟨0, hb⟩ : Fin S16x512x512x2.rank).val
      = gather_S16x512x5_S16x512x512x2_S16x512x512x5_3_01_n_n_01_3_115.indexVectorDim) from by decide +revert)]
    rfl
  | ⟨1, hb⟩ =>
    unfold GatherDims.siIdx
    rw [dif_neg (show ¬ ((⟨1, hb⟩ : Fin S16x512x512x2.rank).val
      = gather_S16x512x5_S16x512x512x2_S16x512x512x5_3_01_n_n_01_3_115.indexVectorDim) from by decide +revert)]
    rfl
  | ⟨2, hb⟩ =>
    unfold GatherDims.siIdx
    rw [dif_neg (show ¬ ((⟨2, hb⟩ : Fin S16x512x512x2.rank).val
      = gather_S16x512x5_S16x512x512x2_S16x512x512x5_3_01_n_n_01_3_115.indexVectorDim) from by decide +revert)]
    rfl
  | ⟨3, hb⟩ =>
    unfold GatherDims.siIdx
    rw [dif_pos (show (⟨3, hb⟩ : Fin S16x512x512x2.rank).val
      = gather_S16x512x5_S16x512x512x2_S16x512x512x5_3_01_n_n_01_3_115.indexVectorDim from rfl)]
    rfl

/-- On the image axis the slice starts at the pair's first component, bounded to 0 … 15; -/
theorem start_image (i : Fin 16) (y x : Fin 512) (cc : Fin 5) (idx : IVec S16x512x512x2 32) :
    gather_S16x512x5_S16x512x512x2_S16x512x512x5_3_01_n_n_01_3_115.start (ix4 i y x cc) idx (0 : Fin S16x512x5.rank)
      = min (idx (ix4 i y x (0 : Fin 2))).toInt.toNat 15 := by
  unfold GatherDims.start
  rw [dif_pos (show (0 : Fin S16x512x5.rank) ∈ gather_S16x512x5_S16x512x512x2_S16x512x512x5_3_01_n_n_01_3_115.startIndexMap by decide)]
  rw [start_index]
  rfl

/-- on the superpixel axis at the second, bounded to 0 … 511; -/
theorem start_row (i : Fin 16) (y x : Fin 512) (cc : Fin 5) (idx : IVec S16x512x512x2 32) :
    gather_S16x512x5_S16x512x512x2_S16x512x512x5_3_01_n_n_01_3_115.start (ix4 i y x cc) idx (1 : Fin S16x512x5.rank)
      = min (idx (ix4 i y x (1 : Fin 2))).toInt.toNat 511 := by
  unfold GatherDims.start
  rw [dif_pos (show (1 : Fin S16x512x5.rank) ∈ gather_S16x512x5_S16x512x512x2_S16x512x512x5_3_01_n_n_01_3_115.startIndexMap by decide)]
  rw [start_index]
  rfl

/-- on the class axis at 0: the whole five-entry row is taken. -/
theorem start_class (j : S16x512x512x5.Idx) (idx : IVec S16x512x512x2 32) :
    gather_S16x512x5_S16x512x512x2_S16x512x512x5_3_01_n_n_01_3_115.start j idx (2 : Fin S16x512x5.rank) = 0 := by
  unfold GatherDims.start
  rw [dif_neg (show ¬ (2 : Fin S16x512x5.rank) ∈ gather_S16x512x5_S16x512x512x2_S16x512x512x5_3_01_n_n_01_3_115.startIndexMap by decide)]

/-- At (i, y, x, c) the reference reads the viewed logits at image i, the row pixel (y, x)'s id names, class c. -/
theorem reference_at (x0 : FVec Ideal S8192x5 .f32) (x1 : IVec S16x512x512 32) (hin : ∀ j, NonNeg (x1 j))
    (i : Fin 16) (y x : Fin 512) (cc : Fin 5) :
    val_main_v17 (F := Ideal) x0 x1 (ix4 i y x cc)
      = val_main_v0 (F := Ideal) x0 (ix3 i (row (x1 (ix3 i y x))) cc) := by
  unfold val_main_v17 Host.gather
  refine congrArg (val_main_v0 (F := Ideal) x0) (funext fun a => Fin.ext ?_)
  have hi : i.val < 16 := i.isLt
  match a with
  | ⟨0, _⟩ =>
    show gather_S16x512x5_S16x512x512x2_S16x512x512x5_3_01_n_n_01_3_115.start (ix4 i y x cc) _ (0 : Fin S16x512x5.rank)
        + gather_S16x512x5_S16x512x512x2_S16x512x512x5_3_01_n_n_01_3_115.batchCoord (ix4 i y x cc) (0 : Fin S16x512x5.rank)
        + gather_S16x512x5_S16x512x512x2_S16x512x512x5_3_01_n_n_01_3_115.offCoord (ix4 i y x cc) (0 : Fin S16x512x5.rank) = i.val
    rw [start_image, GatherDims.batchCoord_eq_zero _ _ _ (by decide), GatherDims.offCoord_eq_zero _ _ _ (by decide),
      image_component, StableHlo.Predicate.toInt_ofNat_small _ (by omega), Int.toNat_natCast]
    omega
  | ⟨1, _⟩ =>
    show gather_S16x512x5_S16x512x512x2_S16x512x512x5_3_01_n_n_01_3_115.start (ix4 i y x cc) _ (1 : Fin S16x512x5.rank)
        + gather_S16x512x5_S16x512x512x2_S16x512x512x5_3_01_n_n_01_3_115.batchCoord (ix4 i y x cc) (1 : Fin S16x512x5.rank)
        + gather_S16x512x5_S16x512x512x2_S16x512x512x5_3_01_n_n_01_3_115.offCoord (ix4 i y x cc) (1 : Fin S16x512x5.rank)
        = (row (x1 (ix3 i y x))).val
    rw [start_row, GatherDims.batchCoord_eq_zero _ _ _ (by decide), GatherDims.offCoord_eq_zero _ _ _ (by decide),
      id_component x1 i y x (hin _)]
    rfl
  | ⟨2, _⟩ =>
    show gather_S16x512x5_S16x512x512x2_S16x512x512x5_3_01_n_n_01_3_115.start (ix4 i y x cc) _ (2 : Fin S16x512x5.rank)
        + gather_S16x512x5_S16x512x512x2_S16x512x512x5_3_01_n_n_01_3_115.batchCoord (ix4 i y x cc) (2 : Fin S16x512x5.rank)
        + gather_S16x512x5_S16x512x512x2_S16x512x512x5_3_01_n_n_01_3_115.offCoord (ix4 i y x cc) (2 : Fin S16x512x5.rank) = cc.val
    rw [start_class, GatherDims.batchCoord_eq_zero _ _ _ (by decide)]
    unfold GatherDims.offCoord
    rw [dif_pos (by decide)]
    show 0 + 0 + cc.val = cc.val
    omega

/-- The reference's result is the gather of the viewed logits by the ids, when no id is negative. -/
theorem reference_eq (x0 : FVec Ideal S8192x5 .f32) (x1 : IVec S16x512x512 32) (hin : ∀ j, NonNeg (x1 j)) :
    val_main_v17 (F := Ideal) x0 x1 = gathered (val_main_v0 (F := Ideal) x0) x1 := by
  funext j
  obtain ⟨i, y, x, cc, rfl⟩ : ∃ (i : Fin 16) (y x : Fin 512) (cc : Fin 5), j = ix4 i y x cc :=
    ⟨j 0, j 1, j 2, j 3, eq_ix4 j⟩
  rw [reference_at x0 x1 hin]
  rfl

end Cert.ReferenceIdeal.RefValue

end
-- ==== Proof.PreEntries.lean ====
/-
  What the precondition says, entry by entry.

  The precondition is two `all`s joined by `and`: every logit's absolute value is below +∞; every segment id is at
  least 0. Each `all` is an and-reduction down to one bit, so the whole being 1 makes each compared bit 1 at every
  index. For a logit that means it is a real number (its absolute value, the larger of it and its negation, excludes
  both infinities); for an id, that read signed it is not negative.
-/
import proofs.«424319_j55310588838069_3_alg».proof.Pre_finite_inputs
import proofs.«424319_j55310588838069_3_alg».proof.Proof.SegmentIds
import Idealize.ShloMosaic.Lib.ReduceAll
import Idealize.ShloMosaic.Lib.ValueIdx
import Idealize.ShloMosaic.Lib.Pipeline.Value
import Idealize.ShloMosaic.Lib.Affine

noncomputable section

namespace Cert.Pre_finite_inputs.Entries

open Cert.Pre_finite_inputs Cert.Pre_finite_inputs.Facts Cert.SegmentIds
open Idealize.ShloMosaic Idealize.ShloMosaic.ValueIdx

variable [Facts]

instance : Subsingleton S_.Idx := ⟨fun a b => funext fun d => d.elim0⟩

/-- The two compared bits, each 1 everywhere. -/
theorem bits_of_pre {a0 : FVec Ideal S8192x5 .f32} {a1 : IVec S16x512x512 32}
    (h : fn (F := Ideal) a0 a1 = fun _ => 1#1) :
    (∀ i, cmpf .olt (Host.absf a0) (broadcastInDim S8192x5 ![] bcast_S_S8192x5 (constant S_ .f32 0x7F800000#32)) i = 1#1)
    ∧ (∀ j, cmpi .sge a1 (broadcastInDim S16x512x512 ![] bcast_S_S16x512x512 (constantI S_ 32 0#32)) j = 1#1) := by
  have h0 := congrFun h ix0
  dsimp only [fn] at h0
  obtain ⟨h1, h2⟩ := IntOp.andi_eq_one.1 h0
  exact ⟨fun i => Host.reduce_andi_all _ _ _ _ ix0 h1 i, fun j => Host.reduce_andi_all _ _ _ _ ix0 h2 j⟩

/-- No segment id is negative. -/
theorem ids_nonNeg {a0 : FVec Ideal S8192x5 .f32} {a1 : IVec S16x512x512 32}
    (h : fn (F := Ideal) a0 a1 = fun _ => 1#1) (j : S16x512x512.Idx) : NonNeg (a1 j) := by
  obtain ⟨-, hge⟩ := bits_of_pre h
  have e0 : broadcastInDim S16x512x512 ![] bcast_S_S16x512x512 (constantI S_ 32 0#32) j = 0#32 :=
    broadcastInDim_apply _ bcast_S_S16x512x512 _ j ix0 (fun a => a.elim0)
  have g := hge j
  change IntOp.cmpi .sge (a1 j) _ = 1#1 at g
  rw [e0] at g
  exact nonNeg_of_cmp g

/-- Every logit is a real number. -/
theorem logit_real {a0 : FVec Ideal S8192x5 .f32} {a1 : IVec S16x512x512 32}
    (h : fn (F := Ideal) a0 a1 = fun _ => 1#1) (i : S8192x5.Idx) : ∃ r : ℝ, a0 i = (r : EReal) := by
  obtain ⟨hfin, -⟩ := bits_of_pre h
  have einf : broadcastInDim S8192x5 ![] bcast_S_S8192x5 (constant (F := Ideal) S_ .f32 0x7F800000#32) i = (⊤ : EReal) := by
    rw [broadcastInDim_apply _ bcast_S_S8192x5 _ i ix0 (fun a => a.elim0)]
    show Ideal.ofBits .f32 0x7F800000#32 = ⊤
    simp [Ideal.ofBits, Ideal.ieee]
  have g := hfin i
  change Ideal.cmp .olt (max (a0 i) (-(a0 i))) _ = 1#1 at g
  rw [einf] at g
  unfold Ideal.cmp at g
  rw [StableHlo.Predicate.ofBool_eq_one_iff, decide_eq_true_eq] at g
  generalize a0 i = v at g ⊢
  induction v using EReal.rec with
  | bot => simp at g
  | coe r => exact ⟨r, rfl⟩
  | top => simp at g

end Cert.Pre_finite_inputs.Entries

end
-- ==== Proof.lean ====
/-
  The certificate of a gather by a one-hot product.

  The kernel looks up, for every pixel of sixteen 512 × 512 images, the five logits of the superpixel the pixel
  belongs to. It cannot index a table by a vector of ids, so it multiplies a one-hot row (the pixel's id against
  the lane numbers 0 … 511) into the image's table, kept as three bf16 terms per logit (the value, the residual of
  its rounding, the residual of that) so that the three products add back up to the f32 logit. The reference is a
  plain indexed read, `logits[image, segments[image, y, x], :]`.

  Over the extended reals a change of float format is the identity: the three terms are v, v − v and
  (v − v) − (v − v), which for a real v are v, 0 and 0; a one-hot row picks out one table row exactly; so the kernel's
  result is the logit in the row the id names, and so is the reference's, for ids that are not negative: there the
  reference's negative-index wrap does nothing, and the kernel's clip to 0 … 511 is the very bound the reference's
  gather puts on its start index (an id past 511 reads row 511 in both). Both programs run to the
  end, fault nowhere and leave their arguments alone: the kernel's by the pipeline's frame run over the body's
  triple, the reference's by its run read back. Nothing was rewritten in idealizing the kernel.
-/
import proofs.«424319_j55310588838069_3_alg».proof.Defs
import proofs.«424319_j55310588838069_3_alg».proof.Proof.Gen.Kernel
import proofs.«424319_j55310588838069_3_alg».proof.Proof.Gen.KernelIdeal
import proofs.«424319_j55310588838069_3_alg».proof.Proof.Gen.ReferenceIdeal
import proofs.«424319_j55310588838069_3_alg».proof.Proof.Gen.Pre_finite_inputs
import proofs.«424319_j55310588838069_3_alg».proof.Proof.Gen.ReferenceIdeal.Run
import proofs.«424319_j55310588838069_3_alg».proof.Proof.Gen.ReferenceIdeal.Read
import proofs.«424319_j55310588838069_3_alg».proof.Proof.Bits.Body
import proofs.«424319_j55310588838069_3_alg».proof.Proof.Ideal.Blocks
import proofs.«424319_j55310588838069_3_alg».proof.Proof.RefValue
import proofs.«424319_j55310588838069_3_alg».proof.Proof.PreEntries
import Idealize.ShloMosaic.Adequacy
import Idealize.ShloMosaic.Init

noncomputable section

namespace Cert.Proof

open Idealize.ShloMosaic Idealize.ShloMosaic.TcCoe Idealize.SL.Sem Cert.SegmentIds

/-- The word-level kernel runs and leaves its arguments alone. -/
theorem frame_kernel : Cert.frame_Kernel := fun m ρ _ => Cert.Kernel.Region.frame (F := Bits) m ρ

/-- So does the idealized kernel. -/
theorem frame_kernelIdeal : Cert.frame_KernelIdeal := fun m ρ _ => Cert.KernelIdeal.Region.frame (F := Ideal) m ρ

/-- So does the reference: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both end at the gather of the launched logits by the launched ids. -/
theorem algebraic : Cert.algebraic_KernelIdeal_ReferenceIdeal := by
  intro m ρ m' ρ' hpre hagree
  have hreal : ∀ (c : Dev Cert.KernelIdeal.nD) i, ∃ r : ℝ,
      (m ((c : Thread Cert.KernelIdeal.nD Cert.KernelIdeal.τ).loc Cert.KernelIdeal.main_arg0)
        : FVec Ideal Cert.KernelIdeal.S8192x5 .f32) i = (r : EReal) :=
    fun c i => Cert.Pre_finite_inputs.Entries.logit_real (hpre c) i
  have hin : ∀ (c : Dev Cert.KernelIdeal.nD) j, NonNeg (Cert.KernelIdeal.ArrayValue.segs m c j) :=
    fun c j => Cert.Pre_finite_inputs.Entries.ids_nonNeg (hpre c) j
  refine ⟨fun c => gathered (Cert.KernelIdeal.Table.logits3 m c) (Cert.KernelIdeal.ArrayValue.segs m c),
    Cert.KernelIdeal.ArrayValue.run m ρ hreal hin, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _).trans ?_
  rw [(hagree c).1, (hagree c).2]
  rw [Cert.ReferenceIdeal.RefValue.reference_eq _ _ (hin c)]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
